-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S32 : Shape := ⟨1, ![32]⟩
abbrev S_ : Shape := ⟨0, ![]⟩

class Facts : Prop where

variable [Facts]

def fn {F : FTy → Type} [FloatOps F] (main_arg0 : IVec S32 32) (main_arg1 : IVec S32 32) : IVec S_ 1 :=
  let main_c : IVec S_ 1 := constantI S_ 1 1#1
  main_c
-- ==== Kernel.lean ====
abbrev S32 : Shape := ⟨1, ![32]⟩
abbrev S32x2048x2048 : Shape := ⟨3, ![32, 2048, 2048]⟩
abbrev S1x512x2048 : Shape := ⟨3, ![1, 512, 2048]⟩
abbrev S512x2048 : Shape := ⟨2, ![512, 2048]⟩
abbrev S1 : Shape := ⟨1, ![1]⟩
abbrev S_ : Shape := ⟨0, ![]⟩

abbrev nBuf : Space → Nat
  | .hbm => 5
  | .vmem => 2
  | .smem => 2
  | _ => 0

abbrev bufTy : (tb : Table) → Fin (tcTables nBuf tb) → BufTy
  | .hbm, ⟨0, _⟩ => ⟨S32x2048x2048, .i32⟩
  | .hbm, ⟨1, _⟩ => ⟨S_, .i32⟩
  | .hbm, ⟨2, _⟩ => ⟨S32x2048x2048, .i32⟩
  | .hbm, ⟨3, _⟩ => ⟨S32x2048x2048, .i1⟩
  | .hbm, ⟨4, _⟩ => ⟨S32x2048x2048, .i1⟩
  | .local _ .vmem, ⟨0, _⟩ => ⟨S1x512x2048, .i32⟩
  | .local _ .vmem, ⟨1, _⟩ => ⟨S1x512x2048, .i32⟩
  | .local _ .smem, ⟨0, _⟩ => ⟨S32, .i32⟩
  | .local _ .smem, ⟨1, _⟩ => ⟨S32, .i32⟩
  | _, _ => ⟨S32x2048x2048, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_v0 : Ref sig .tc := ⟨.hbm, 0, rfl⟩
abbrev main_c : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨2, ![32, 4], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v5 : Index := Scalar.indexCast arg0
  ![v5.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

class Facts₀ : Prop where
  iota_S512x2048_d0_w32 : S512x2048.Iotas .tc 32 [0]
  iota_S512x2048_d1_w32 : S512x2048.Iotas .tc 32 [1]
  numel1_S1 : S1.numel = 1
  inb_S1x512x2048_S1x512x2048_0_0_0 : ∀ a, (![0, 0, 0] : Fin 3 → Nat) a + S1x512x2048.size a ≤ S1x512x2048.size a
  h_S1x512x2048 : 0 < S1x512x2048.numel
  natLt_1_32 : 1 < 32
  shapeCasts_S1x512x2048_S512x2048 : S1x512x2048.ShapeCasts S512x2048
  shapeCasts_S512x2048_S1x512x2048 : S512x2048.ShapeCasts S1x512x2048
  bcast_S_S32x2048x2048 : S_.BroadcastsInDim S32x2048x2048 (![] : Fin 0 → Fin S32x2048x2048.rank)
  hrank0 : 0 < grid0.rank
  k0_off1_inb : ∀ i : grid0.Coords, ∀ a, (k0_off1 i) a + S1.size a ≤ S32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S32x2048x2048.size a
  hwx0_0 : ∀ i : grid0.Coords, EltTy.bits .i32 = 32 ∨ (Rect.block (s := S32x2048x2048) S1x512x2048.size (cc0_transform_0 i) (hinb0_0 i)).WholeWords (EltTy.packing .i32)

variable [Facts₀]

abbrev spec0_0 : Pipeline.WinSpec sig grid0.rank :=
  Pipeline.WinSpec.ofSpec (Memref.whole main_v0) S1x512x2048.size reads0_0 true false 2 stage0_0 sem0_0 nbuf0_0 hstage0_0

abbrev spec0 : Fin 1 → Pipeline.WinSpec sig grid0.rank := fun | 0 => spec0_0 | ⟨_ + 1, h⟩ => absurd h (Nat.not_lt.2 (Nat.le_add_left _ _))
theorem hcount0 : ∀ w, grid0.bufCount (spec0 w).reads (spec0 w).sync = (spec0 w).nbuf := fun | 0 => nbuf0_0 | ⟨_ + 1, h⟩ => absurd h (Nat.not_lt.2 (Nat.le_add_left _ _))
abbrev ix0 (pf : pre0.Contents (Elt F)) : (w : Fin 1) → grid0.Coords → Fin (spec0 w).shape.rank → Nat := fun | 0 => cc0_transform_0 | ⟨_ + 1, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | ⟨_ + 1, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | ⟨_ + 1, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | ⟨_ + 1, h⟩ => absurd h (Nat.not_lt.2 (Nat.le_add_left _ _))

class Facts : Prop extends Facts₀ where
  harr0 : ∀ w, (spec0 w).arr.IsWhole

variable [Facts]
-- ==== ReferenceIdeal.lean ====
abbrev S32 : Shape := ⟨1, ![32]⟩
abbrev S2048 : Shape := ⟨1, ![2048]⟩
abbrev S1x2048 : Shape := ⟨2, ![1, 2048]⟩
abbrev S32x1 : Shape := ⟨2, ![32, 1]⟩
abbrev S32x2048 : Shape := ⟨2, ![32, 2048]⟩
abbrev S32x2048x1 : Shape := ⟨3, ![32, 2048, 1]⟩
abbrev S32x1x2048 : Shape := ⟨3, ![32, 1, 2048]⟩
abbrev S32x2048x2048 : Shape := ⟨3, ![32, 2048, 2048]⟩

abbrev nBuf : Space → Nat
  | .hbm => 18
  | .vmem => 0
  | .smem => 0
  | _ => 0

abbrev bufTy : (tb : Table) → Fin (tcTables nBuf tb) → BufTy
  | .hbm, ⟨0, _⟩ => ⟨S32, .i32⟩
  | .hbm, ⟨1, _⟩ => ⟨S32, .i32⟩
  | .hbm, ⟨2, _⟩ => ⟨S2048, .i32⟩
  | .hbm, ⟨3, _⟩ => ⟨S1x2048, .i32⟩
  | .hbm, ⟨4, _⟩ => ⟨S32x1, .i32⟩
  | .hbm, ⟨5, _⟩ => ⟨S32x2048, .i32⟩
  | .hbm, ⟨6, _⟩ => ⟨S32x2048, .i32⟩
  | .hbm, ⟨7, _⟩ => ⟨S32x2048, .i1⟩
  | .hbm, ⟨8, _⟩ => ⟨S1x2048, .i32⟩
  | .hbm, ⟨9, _⟩ => ⟨S32x1, .i32⟩
  | .hbm, ⟨10, _⟩ => ⟨S32x2048, .i32⟩
  | .hbm, ⟨11, _⟩ => ⟨S32x2048, .i32⟩
  | .hbm, ⟨12, _⟩ => ⟨S32x2048, .i1⟩
  | .hbm, ⟨13, _⟩ => ⟨S32x2048x1, .i1⟩
  | .hbm, ⟨14, _⟩ => ⟨S32x1x2048, .i1⟩
  | .hbm, ⟨15, _⟩ => ⟨S32x2048x2048, .i1⟩
  | .hbm, ⟨16, _⟩ => ⟨S32x2048x2048, .i1⟩
  | .hbm, ⟨17, _⟩ => ⟨S32x2048x2048, .i1⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S32_S32x1_0 : S32.BroadcastsInDim S32x1 (![0] : Fin 1 → Fin S32x1.rank)
  bcast_S1x2048_S32x2048_0_1 : S1x2048.BroadcastsInDim S32x2048 (![0, 1] : Fin 2 → Fin S32x2048.rank)
  bcast_S32x1_S32x2048_0_1 : S32x1.BroadcastsInDim S32x2048 (![0, 1] : Fin 2 → Fin S32x2048.rank)
  bcast_S32x2048_S32x2048x1_0_1 : S32x2048.BroadcastsInDim S32x2048x1 (![0, 1] : Fin 2 → Fin S32x2048x1.rank)
  bcast_S32x2048_S32x1x2048_0_2 : S32x2048.BroadcastsInDim S32x1x2048 (![0, 2] : Fin 2 → Fin S32x1x2048.rank)
  bcast_S32x2048x1_S32x2048x2048_0_1_2 : S32x2048x1.BroadcastsInDim S32x2048x2048 (![0, 1, 2] : Fin 3 → Fin S32x2048x2048.rank)
  bcast_S32x1x2048_S32x2048x2048_0_1_2 : S32x1x2048.BroadcastsInDim S32x2048x2048 (![0, 1, 2] : Fin 3 → Fin S32x2048x2048.rank)

variable [Facts₀]

class Facts : Prop extends Facts₀ where

variable [Facts]
-- ==== Proof.MaskSpec.lean ====
/-
  The padding mask of a batch of ragged sequences, as one function of the two length vectors.

  For batch entry b, query position i and key position j the mask bit is
      (i <ₛ len_q[b]) ∧ (j <ₛ len_k[b]),
  both comparisons signed on 32-bit words, the positions i, j < 2048 read as the words of those numbers.
  Both programs compute this bit; the kernel keeps it widened to a 32-bit word (0 or 1) until the host
  turns "word ≠ 0" back into a bit. This module states the bit, the word, and the two small facts on words
  that join them: a widened bit is non-zero exactly when the bit is set, and the word of the row number
  p·512 + r is the product-and-sum the kernel forms from the block number p and the row r inside the block.
-/
import Idealize.ShloMosaic.PureOps
import Idealize.ShloMosaic.Lib.ValueIdx

noncomputable section

namespace Cert.PadMask

open Idealize.ShloMosaic Idealize.ShloMosaic.ValueIdx

/-- The shape of a length vector: one word per batch entry. -/
abbrev Lens : Shape := ⟨1, ![32]⟩
/-- The shape of the mask: batch × query position × key position. -/
abbrev Cube : Shape := ⟨3, ![32, 2048, 2048]⟩

/-- The bit at (b, i, j) from the row number's word, the column number's word and the two lengths of entry b. -/
def bitOf (row col lq lk : BitVec 32) : BitVec 1 :=
  IntOp.andi (IntOp.cmpi .slt row lq) (IntOp.cmpi .slt col lk)

/-- The mask: at (b, i, j) the bit "i is a valid query position of entry b and j a valid key position". -/
def mask (lq lk : IVec Lens 32) : IVec Cube 1 := fun i =>
  bitOf (BitVec.ofNat 32 (i 1).val) (BitVec.ofNat 32 (i 2).val) (lq (ix1 (i 0))) (lk (ix1 (i 0)))

/-- The mask with every bit widened to a 32-bit word, 0 or 1: what the kernel's blocks hold. -/
def maskWords (lq lk : IVec Lens 32) : IVec Cube 32 := fun i => (mask lq lk i).setWidth 32

/-- The mask's word at an index whose batch coordinate is b, whose row is `row` and whose column is `col`. -/
theorem maskWords_at (lq lk : IVec Lens 32) (I : Cube.Idx) (b : Fin 32) (row col : Nat)
    (h0 : (I 0).val = b.val) (h1 : (I 1).val = row) (h2 : (I 2).val = col) :
    maskWords lq lk I = (bitOf (BitVec.ofNat 32 row) (BitVec.ofNat 32 col) (lq (ix1 b)) (lk (ix1 b))).setWidth 32 := by
  have hb : I 0 = b := Fin.ext h0
  unfold maskWords mask
  rw [h1, h2, hb]

/-- A bit widened to 32 bits differs from the zero word exactly when the bit is set. -/
theorem ne_zero_of_widened (b : BitVec 1) : IntOp.cmpi .ne (b.setWidth 32) 0#32 = b := by
  rcases BitVec.eq_zero_or_eq_one b with h | h <;> subst h <;> decide

/-- The word of row p·512 + r is the word of p times 512 plus the word of r (no wrap-around is involved:
    the identity holds for words of any numbers). -/
theorem rowWord (p r : Nat) :
    IntOp.addi (Scalar.muli (BitVec.ofNat 32 p) 512#32) (BitVec.ofNat 32 r) = BitVec.ofNat 32 (p * 512 + r) := by
  show BitVec.ofNat 32 p * BitVec.ofNat 32 512 + BitVec.ofNat 32 r = _
  rw [BitVec.ofNat_add, BitVec.ofNat_mul]

end Cert.PadMask

end
-- ==== Proof.KernelBlock.lean ====
/-
  What one grid point leaves in its block of the mask.

  The grid has 32 × 4 points (b, p): batch entry b, and the p-th run of 512 query rows. The body reads the two
  lengths of entry b from the prefetched tables, forms for each (r, j) of its 512 × 2048 tile the bit
      (p·512 + r <ₛ len_q[b]) ∧ (j <ₛ len_k[b]),
  widens it to a word and stores the tile, with a leading unit axis, over its whole staging buffer. So the
  buffer ends holding, at (0, r, j), that widened bit — whatever it held before.
-/
import proofs.«414472_j20495583936830_1_alg».proof.Proof.Gen.KernelIdeal.Frame
import proofs.«414472_j20495583936830_1_alg».proof.Proof.MaskSpec
import Idealize.ShloMosaic.Lib.Pipeline.Value
import Idealize.ShloMosaic.Lib.ValueIdx

set_option maxRecDepth 16384

noncomputable section

namespace Cert.KernelIdeal.MaskValue

open Idealize.ShloMosaic Idealize.ShloMosaic.TcCoe Idealize.ShloMosaic.Tactic Idealize.SL.Sem Idealize.ShloMosaic.ValueIdx
open Cert.KernelIdeal Cert.KernelIdeal.Gen Cert.PadMask

variable {F : FTy → Type} [FloatOps F]

/-- The staging buffer is stored at offset zero on each of its three axes. -/
theorem zeroOffsets : (![0, 0, 0] : Fin 3 → Nat) = fun _ => 0 := funext fun a => by fin_cases a <;> rfl

/-- The batch coordinate, taken as a 32-bit word and cast to an index, is the number it came from (it is below 32). -/
theorem batchOffset : ∀ b : Fin 32, (Scalar.indexCast (BitVec.ofNat 32 b.val)).toNat = b.val := by decide

/-- The one-word load from the query-length table at the point's batch coordinate reads that entry's length. -/
theorem lenq_word (c : Dev nD) (i : grid0.Coords) (xt : TbBuf0 (F := F) c tbM0_0)
    (inb : ∀ a, (k0_off1 i) a + S1.size a ≤ S32.size a)
    (h : 0 < (Rect.unit (s := S32) (k0_off1 i) S1.size inb).toLoadRect.shape.numel) :
    View.readAt (Elt F) tbM0_0.view (Rect.unit (s := S32) (k0_off1 i) S1.size inb).toLoadRect xt (Shape.Idx.first h)
      = xt (ix1 (i 0)) := by
  rw [View.readAt_apply]
  show xt ((Rect.unit (s := S32) (k0_off1 i) S1.size inb).idx (Shape.Idx.first h)) = xt (ix1 (i 0))
  refine congrArg xt (funext fun a => ?_)
  match a with
  | ⟨0, _⟩ =>
    apply Fin.ext
    show (Scalar.indexCast (BitVec.ofNat 32 (i 0).val)).toNat + 1 * 0 = (i 0).val
    rw [Nat.mul_zero, Nat.add_zero]
    exact batchOffset (i 0)

/-- The same for the key-length table. -/
theorem lenk_word (c : Dev nD) (i : grid0.Coords) (xt : TbBuf0 (F := F) c tbM0_1)
    (inb : ∀ a, (k0_off1 i) a + S1.size a ≤ S32.size a)
    (h : 0 < (Rect.unit (s := S32) (k0_off1 i) S1.size inb).toLoadRect.shape.numel) :
    View.readAt (Elt F) tbM0_1.view (Rect.unit (s := S32) (k0_off1 i) S1.size inb).toLoadRect xt (Shape.Idx.first h)
      = xt (ix1 (i 0)) := by
  rw [View.readAt_apply]
  show xt ((Rect.unit (s := S32) (k0_off1 i) S1.size inb).idx (Shape.Idx.first h)) = xt (ix1 (i 0))
  refine congrArg xt (funext fun a => ?_)
  match a with
  | ⟨0, _⟩ =>
    apply Fin.ext
    show (Scalar.indexCast (BitVec.ofNat 32 (i 0).val)).toNat + 1 * 0 = (i 0).val
    rw [Nat.mul_zero, Nat.add_zero]
    exact batchOffset (i 0)

/-- After the body at grid coordinates `i`, the staging buffer holds the body's stored tile, computed from the
    two lengths of batch entry `i 0`; nothing of the buffer's earlier contents is left. -/
theorem staged_eq (c : Dev nD) (i : grid0.Coords) (arg4 : Memref sig .tc .vmem S1x512x2048 .i32) (harg4 : arg4.IsWhole)
    (xt0 : TbBuf0 (F := F) c tbM0_0) (xt1 : TbBuf0 (F := F) c tbM0_1) :
    out0_A_0 c i arg4 harg4 xt0 xt1 = k0_pay1 (F := F) i (xt0 (ix1 (i 0))) (xt1 (ix1 (i 0))) := by
  unfold out0_A_0
  rw [View.read_writes_eq_canon _ _ _ (cover0_A_0 c i arg4 harg4 xt0 xt1)]
  unfold kernelRun0_A
  dsimp only
  sl_unfold_words
  rw [View.canon_unit_zero zeroOffsets]
  exact congrArg₂ (k0_pay1 (F := F) i) (lenq_word c i xt0 _ _) (lenk_word c i xt1 _ _)

/-- The stored tile at (0, r, j): the bit of row p·512 + r and column j against the two lengths, widened to a word. -/
theorem tile_apply (i : grid0.Coords) (lq lk : BitVec 32) (z : Fin 1) (r : Fin 512) (q : Fin 2048) :
    k0_pay1 (F := F) i lq lk (ix3 z r q)
      = (bitOf (BitVec.ofNat 32 ((i 1).val * 512 + r.val)) (BitVec.ofNat 32 q.val) lq lk).setWidth 32 := by
  unfold k0_pay1
  dsimp only
  refine (shapeCast_apply _ _ (ix3 z r q) (ix2 r q) ?_).trans ?_
  · rw [Shape.rowMajor_val_two, Shape.rowMajor_val_three]
    have hz : z.val = 0 := by omega
    show r.val * 2048 + q.val = (z.val * 512 + r.val) * 2048 + q.val
    rw [hz]; omega
  · show (bitOf (IntOp.addi (Scalar.muli (BitVec.ofNat 32 (i 1).val) 512#32) (iota .tc S512x2048 32 [0] iota_S512x2048_d0_w32 (ix2 r q)))
        (iota .tc S512x2048 32 [1] iota_S512x2048_d1_w32 (ix2 r q)) lq lk).setWidth 32 = _
    rw [iota_single_apply, iota_single_apply]
    show (bitOf (IntOp.addi (Scalar.muli (BitVec.ofNat 32 (i 1).val) 512#32) (BitVec.ofNat 32 r.val)) (BitVec.ofNat 32 q.val) lq lk).setWidth 32 = _
    rw [rowWord]

end Cert.KernelIdeal.MaskValue

end
-- ==== Proof.KernelArray.lean ====
/-
  From the blocks to the whole array of mask words.

  Point (b, p) of the 32 × 4 grid writes its 1 × 512 × 2048 tile back to block (b, p, 0) of the array, that is
  to batch entry b, rows p·512 … p·512 + 511, all 2048 columns. The tile's entry (0, r, j) is the word of the
  mask at (b, p·512 + r, j), so what each point writes back is its block of ONE function of the array index:
  the mask's words of the two length tables. Every index (b, i, j) lies in the block of point (b, i / 512), so
  after the last write-back the whole array holds the mask's words.
-/
import proofs.«414472_j20495583936830_1_alg».proof.Proof.KernelBlock

set_option maxRecDepth 16384

noncomputable section

namespace Cert.KernelIdeal.MaskValue

open Idealize.ShloMosaic Idealize.ShloMosaic.TcCoe Idealize.ShloMosaic.Tactic Idealize.SL.Sem Idealize.ShloMosaic.ValueIdx
open Idealize.ShloMosaic.Pipeline (Dat Cfg Window)
open Cert.KernelIdeal Cert.KernelIdeal.Gen Cert.PadMask

variable {F : FTy → Type} [FloatOps F]
variable (m : (ℓ : Loc nD τ sig) → Buf (Elt F) ℓ)

/-- The block index of a grid point is its two coordinates and 0: the coordinates, below 32 and 4, survive the
    passage through 32-bit words. -/
theorem blockIndex (i : grid0.Coords) : cc0_transform_0 i = ![(i 0).val, (i 1).val, 0] := by
  have h0 : (i 0).val < 32 := (i 0).isLt
  have h1 : (i 1).val < 4 := (i 1).isLt
  funext a
  match a with
  | ⟨0, _⟩ => show (BitVec.ofNat 32 (i 0).val).toNat = (i 0).val; rw [BitVec.toNat_ofNat]; exact Nat.mod_eq_of_lt (by omega)
  | ⟨1, _⟩ => show (BitVec.ofNat 32 (i 1).val).toNat = (i 1).val; rw [BitVec.toNat_ofNat]; exact Nat.mod_eq_of_lt (by omega)
  | ⟨2, _⟩ => rfl

/-- Every pair (batch entry, run of rows) is the coordinate pair of some grid point. -/
theorem point_of : ∀ (b : Fin 32) (p : Fin 4), ∃ t : Fin grid0.N, (grid0.coords t 0).val = b.val ∧ (grid0.coords t 1).val = p.val :=
  by decide +kernel

/-- WHAT POINT `t` WRITES BACK is block `t` of the mask's words of the two length tables. -/
theorem flushed_eq (hO : Ok m) (c : Dev nD) (t : Fin (cfgM m hO).N) :
    (dats m hO 0 c).flushed 0 t = (((cfgM m hO).win 0).blk t).view.read (Elt F) (maskWords (tbl m 0) (tbl m 1)) := by
  show ((cfgM m hO).win 0).cut (grid0.coords t) ((dats m hO 0 c).after 0 t) = _
  rw [after0_0]
  unfold outsAt0
  refine (congrArg (((cfgM m hO).win 0).cut (grid0.coords t))
    (staged_eq (F := F) c (grid0.coords t) (ms0_0 m hO t) (hs0_0 m hO t) (tbl m 0) (tbl m 1))).trans ?_
  refine funext fun (j : S1x512x2048.Idx) => ?_
  obtain ⟨z, r, q, rfl⟩ : ∃ (z : Fin 1) (r : Fin 512) (q : Fin 2048), j = ix3 z r q := ⟨j 0, j 1, j 2, eq_ix3 j⟩
  have hz : z.val = 0 := by omega
  have hi := blockIndex (grid0.coords t)
  refine (tile_apply (F := F) (grid0.coords t) (tbl m 0 (ix1 (grid0.coords t 0))) (tbl m 1 (ix1 (grid0.coords t 0))) z r q).trans
    (maskWords_at (tbl m 0) (tbl m 1) ((((cfgM m hO).win 0).blk t).view.emb (ix3 z r q)) (grid0.coords t 0)
      ((grid0.coords t 1).val * 512 + r.val) q.val ?_ ?_ ?_).symm
  · show cc0_transform_0 (grid0.coords t) (0 : Fin 3) * 1 + 1 * z.val = (grid0.coords t 0).val
    rw [hi, hz]; show (grid0.coords t 0).val * 1 + 1 * 0 = _; omega
  · show cc0_transform_0 (grid0.coords t) (1 : Fin 3) * 512 + 1 * r.val = (grid0.coords t 1).val * 512 + r.val
    rw [hi]; show (grid0.coords t 1).val * 512 + 1 * r.val = _; omega
  · show cc0_transform_0 (grid0.coords t) (2 : Fin 3) * 2048 + 1 * q.val = q.val
    rw [hi]; show 0 * 2048 + 1 * q.val = _; omega

/-- An index of the array is under a unit-stride rectangle of it iff each coordinate is in the rectangle's range. -/
theorem mem_rect (off size : Fin 3 → Nat) (inb : ∀ a, off a + size a ≤ S32x2048x2048.size a) (i : S32x2048x2048.Idx) :
    i ∈ ((View.whole main_v0).slice (Rect.unit (s := S32x2048x2048) off size inb)).set
      ↔ ∀ a : Fin 3, off a ≤ (i a).val ∧ (i a).val < off a + size a := by
  rw [View.set_slice_whole]
  exact Rect.mem_set_unit

/-- An index of the array is in point `t`'s block iff each coordinate is in the block's range on its axis. -/
theorem mem_blk (hO : Ok m) (t : Fin (cfgM m hO).N) (i : S32x2048x2048.Idx) :
    i ∈ (((cfgM m hO).win 0).blk t).view.set ↔ ∀ a : Fin 3, cc0_transform_0 (grid0.coords t) a * S1x512x2048.size a ≤ (i a).val
      ∧ (i a).val < cc0_transform_0 (grid0.coords t) a * S1x512x2048.size a + S1x512x2048.size a :=
  mem_rect (fun a => cc0_transform_0 (grid0.coords t) a * S1x512x2048.size a) S1x512x2048.size _ i

/-- Every index (b, i, j) of the array is in the block of the point with coordinates (b, i / 512). -/
theorem covered (hO : Ok m) (i : S32x2048x2048.Idx) :
    ∃ t : Fin (cfgM m hO).N, ((cfgM m hO).win 0).flush t = true ∧ i ∈ (((cfgM m hO).win 0).blk t).view.set := by
  have hi0 : (i 0).val < 32 := (i 0).isLt
  have hi1 : (i 1).val < 2048 := (i 1).isLt
  have hi2 : (i 2).val < 2048 := (i 2).isLt
  obtain ⟨t, e0, e1⟩ := point_of ⟨(i 0).val, hi0⟩ ⟨(i 1).val / 512, by omega⟩
  have e0' : (grid0.coords t 0).val = (i 0).val := e0
  have e1' : (grid0.coords t 1).val = (i 1).val / 512 := e1
  refine ⟨t, flush0_0 (adm m hO) t, ?_⟩
  rw [mem_blk, blockIndex]
  intro a
  match a with
  | ⟨0, _⟩ => show (grid0.coords t 0).val * 1 ≤ (i 0).val ∧ (i 0).val < (grid0.coords t 0).val * 1 + 1; omega
  | ⟨1, _⟩ => show (grid0.coords t 1).val * 512 ≤ (i 1).val ∧ (i 1).val < (grid0.coords t 1).val * 512 + 512; omega
  | ⟨2, _⟩ => show 0 * 2048 ≤ (i 2).val ∧ (i 2).val < 0 * 2048 + 2048; omega

/-- THE ARRAY after the last write-back: the mask's words of the two length tables. -/
theorem words_final (hO : Ok m) (c : Dev nD) :
    (dats m hO 0 c).arrAt 0 (cfgM m hO).N = maskWords (tbl m 0) (tbl m 1) :=
  (dats m hO 0 c).arrAt_eq_of_cover 0 (maskWords (tbl m 0) (tbl m 1)) (fun t _ => flushed_eq m hO c t) (covered m hO)

end Cert.KernelIdeal.MaskValue

end
-- ==== Proof.KernelRun.lean ====
/-
  The kernel program's result: the mask.

  After the region the host compares the array of mask words with zero ("word ≠ 0") and passes the resulting
  bits on unchanged. A bit widened to a word is non-zero exactly when the bit is set, so the program's result
  is the mask itself, as a function of the two length tables — which the run leaves as it found them.
-/
import proofs.«414472_j20495583936830_1_alg».proof.Proof.KernelArray
import Idealize.ShloMosaic.Lib.StableHlo.Run

set_option maxRecDepth 16384

noncomputable section

namespace Cert.KernelIdeal.MaskValue

open Idealize.ShloMosaic Idealize.ShloMosaic.TcCoe Idealize.ShloMosaic.Tactic Idealize.SL.Sem Idealize.ShloMosaic.ValueIdx
open Idealize.ShloMosaic.Pipeline (Dat Cfg Window)
open Cert.KernelIdeal Cert.KernelIdeal.Gen Cert.PadMask

variable {F : FTy → Type} [FloatOps F]
variable (m : (ℓ : Loc nD τ sig) → Buf (Elt F) ℓ) (ρ : Dev nD → PrngReg)

/-- "Word ≠ 0" of the mask's words, bit by bit, is the mask. -/
theorem bits_of_words (lq lk : IVec Lens 32) :
    cmpi .ne (maskWords lq lk) (broadcastInDim S32x2048x2048 ![] bcast_S_S32x2048x2048 (constantI S_ 32 0#32)) = mask lq lk :=
  funext fun i => ne_zero_of_widened (mask lq lk i)

/-- What the host operations after the region leave in the result buffer: the mask of the two length tables. -/
theorem result_eq (hO : Ok m) (c : Dev nD) :
    Pipeline.afterTail pcfgs (fun _ => adm m hO) (dats m hO) 0 (V0 m) [hostOps1] c main_v3 = mask (tbl m 0) (tbl m 1) := by
  unfold Pipeline.afterTail
  show StableHlo.after hostOps1 _ (Proc.devRef .tc main_v3) = _
  after_results
  exact (congrArg (fun X : IVec S32x2048x2048 32 =>
      cmpi .ne X (broadcastInDim S32x2048x2048 ![] bcast_S_S32x2048x2048 (constantI S_ 32 0#32)))
    ((Pipeline.withArrays_arr spec0 (launch0 (F := F)).win.arr_inj c _ _ 0).trans (words_final m hO c))).trans
    (bits_of_words _ _)

/-- The length tables as the region finds them are the program's two arguments. -/
theorem tbl_q (c : Dev nD) : tbl m 0 = m ((c : Thread nD τ).loc main_arg0) := (V_pre m c 0).symm.trans (V_main_arg0 m c)
theorem tbl_k (c : Dev nD) : tbl m 1 = m ((c : Thread nD τ).loc main_arg1) := (V_pre m c 1).symm.trans (V_main_arg1 m c)

/-- THE RUN: every weakly fair execution of the kernel program terminates with the result buffer at the mask of its
    two arguments, and the arguments as they were. -/
theorem run (hO : Ok m) : θ_run defs (onTc (τ := τ) (main (F := F))) ⟨m, fun _ => 0, ρ⟩ (fun r => ∀ c : Dev nD,
      r.2.mem ((c.tc : Thread nD τ).loc main_v3) = mask (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(((h c).2 main_v3 (by decide : main_v3 ∈ Pipeline.restRefs sig spec0)).trans (result_eq m hO c)).trans
        (by rw [tbl_q m c, tbl_k m c]),
      ((h c).2 main_arg0 (by decide : main_arg0 ∈ Pipeline.restRefs sig spec0)).trans (W_main_arg0 m hO (dats m hO) c),
      ((h c).2 main_arg1 (by decide : main_arg1 ∈ Pipeline.restRefs sig spec0)).trans (W_main_arg1 m hO (dats m hO) c)⟩)
    (run_main m ρ hO)

end Cert.KernelIdeal.MaskValue

end
-- ==== Proof.RefMask.lean ====
/-
  The reference computes the padding mask.

  Its sixteen host operations build the position vector 0 … 2047, broadcast it against each length vector,
  compare (signed), and broadcast the two [batch, position] comparison tables along the missing axis before
  the final "and". Read at an index (b, i, j), every broadcast just drops or repeats a coordinate: the left
  operand of the "and" is the comparison of position i with len_q[b], the right one that of position j with
  len_k[b]. That is the mask's bit at (b, i, j).
-/
import proofs.«414472_j20495583936830_1_alg».proof.Proof.Gen.ReferenceIdeal.Read
import proofs.«414472_j20495583936830_1_alg».proof.Proof.MaskSpec

noncomputable section

namespace Cert.ReferenceIdeal.MaskValue

open Idealize.ShloMosaic Idealize.ShloMosaic.ValueIdx
open Cert.ReferenceIdeal Cert.ReferenceIdeal.Read Cert.PadMask

variable {F : FTy → Type} [FloatOps F]

/-- Through the four broadcasts on the query side, index (b, i, j) reads the length vector at b. -/
theorem lens_q_idx (i : S32x2048x2048.Idx) :
    idx_main_v2 (idx_main_v4 (idx_main_v11 (idx_main_v13 i))) = ix1 (i 0) :=
  funext fun a => match a with | ⟨0, _⟩ => rfl

/-- Through the four broadcasts on the key side, index (b, i, j) reads the length vector at b. -/
theorem lens_k_idx (i : S32x2048x2048.Idx) :
    idx_main_v7 (idx_main_v9 (idx_main_v12 (idx_main_v14 i))) = ix1 (i 0) :=
  funext fun a => match a with | ⟨0, _⟩ => rfl

/-- The reference's result, as the stage the generated read-back names, is the mask of the two length vectors. -/
theorem stage_eq_mask (lq lk : IVec Lens 32) : val_main_v15 (F := F) lq lk = mask lq lk := by
  funext i
  rw [val_main_v15_apply, val_main_v13_apply, val_main_v11_apply, val_main_v5_apply, val_main_v3_apply,
    val_main_v1_apply, val_main_v0_apply, val_main_v4_apply, val_main_v2_apply,
    val_main_v14_apply, val_main_v12_apply, val_main_v10_apply, val_main_v8_apply, val_main_v6_apply,
    val_main_v0_apply, val_main_v9_apply, val_main_v7_apply, lens_q_idx, lens_k_idx]
  rfl

end Cert.ReferenceIdeal.MaskValue

end
-- ==== Proof.lean ====
/-
  The padding-mask kernel computes what its reference computes.

  For 32 ragged sequences with query lengths len_q and key lengths len_k, both programs produce the
  32 × 2048 × 2048 table of bits
      mask[b, i, j] = (i <ₛ len_q[b]) ∧ (j <ₛ len_k[b]),
  signed comparisons of 32-bit words. Nothing is asked of the inputs: the equality holds for every pair of
  integer vectors, negative or oversized lengths included, because both sides perform the same two signed
  comparisons on the same words.

  The reference builds the table by broadcasting the position vector 0 … 2047 against each length vector,
  comparing, and broadcasting the two comparison tables against each other before the "and" (Proof/RefMask.lean).
  The kernel walks a 32 × 4 grid; point (b, p) reads len_q[b] and len_k[b] from the prefetched tables, forms the
  512 × 2048 tile of rows p·512 … p·512 + 511 with each bit widened to a word (Proof/KernelBlock.lean), and the
  tiles cover the array (Proof/KernelArray.lean); the host then turns "word ≠ 0" back into the bit
  (Proof/KernelRun.lean). The function both sides equal is `Cert.PadMask.mask` (Proof/MaskSpec.lean).

  The index map of the kernel's one window reads no prefetched table, so the side condition on the tables'
  contents is empty and the frames hold for every input. The idealization rewrote nothing (the programs have no
  float), so the kernel's idealized form is its own text.
-/
import proofs.«414472_j20495583936830_1_alg».proof.Defs
import proofs.«414472_j20495583936830_1_alg».proof.Proof.Gen.Kernel
import proofs.«414472_j20495583936830_1_alg».proof.Proof.Gen.Kernel.Skeleton
import proofs.«414472_j20495583936830_1_alg».proof.Proof.Gen.Kernel.Launch
import proofs.«414472_j20495583936830_1_alg».proof.Proof.Gen.Kernel.Points
import proofs.«414472_j20495583936830_1_alg».proof.Proof.Gen.Kernel.Frame
import proofs.«414472_j20495583936830_1_alg».proof.Proof.Gen.KernelIdeal
import proofs.«414472_j20495583936830_1_alg».proof.Proof.Gen.KernelIdeal.Skeleton
import proofs.«414472_j20495583936830_1_alg».proof.Proof.Gen.KernelIdeal.Launch
import proofs.«414472_j20495583936830_1_alg».proof.Proof.Gen.KernelIdeal.Points
import proofs.«414472_j20495583936830_1_alg».proof.Proof.Gen.KernelIdeal.Frame
import proofs.«414472_j20495583936830_1_alg».proof.Proof.Gen.ReferenceIdeal
import proofs.«414472_j20495583936830_1_alg».proof.Proof.Gen.ReferenceIdeal.Run
import proofs.«414472_j20495583936830_1_alg».proof.Proof.Gen.ReferenceIdeal.Read
import proofs.«414472_j20495583936830_1_alg».proof.Proof.Gen.Pre_any_inputs
import proofs.«414472_j20495583936830_1_alg».proof.Proof.KernelRun
import proofs.«414472_j20495583936830_1_alg».proof.Proof.RefMask
import Idealize.ShloMosaic.Adequacy
import Idealize.ShloMosaic.Init

noncomputable section

namespace Cert.Proof

open Idealize.ShloMosaic Idealize.SL.Sem

/-- The word-level kernel runs and leaves its arguments alone: its window's index map reads no table, so the
    condition on the tables' contents is empty. -/
theorem frame_kernel : Cert.frame_Kernel := fun m ρ _ => Cert.Kernel.Gen.frame m ρ trivial

/-- The same for the kernel read at the ideal instance. -/
theorem frame_kernelIdeal : Cert.frame_KernelIdeal := fun m ρ _ => Cert.KernelIdeal.Gen.frame m ρ trivial

/-- The reference runs and leaves its arguments alone: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the two length vectors, both programs end with the mask of those vectors in their
    result buffers. -/
theorem algebraic : Cert.algebraic_KernelIdeal_ReferenceIdeal := by
  intro m ρ m' ρ' _ hagree
  refine ⟨fun c => Cert.PadMask.mask (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.MaskValue.run (F := Ideal) m ρ trivial, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.MaskValue.stage_eq_mask, (hagree c).1, (hagree c).2]

theorem claim : Cert.Claim :=
  ⟨Cert.Kernel.Gen.facts, Cert.KernelIdeal.Gen.facts, Cert.ReferenceIdeal.Gen.facts, Cert.Pre_any_inputs.Gen.facts,
    frame_kernel, frame_kernelIdeal, frame_reference, trivial, algebraic⟩

end Cert.Proof

end
